-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S11008x2048 : Shape := ⟨2, ![11008, 2048]⟩
abbrev S11008 : Shape := ⟨1, ![11008]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S11008 : S_.BroadcastsInDim S11008 (![] : Fin 0 → Fin S11008.rank)
  reducesTo_S11008_S_d0 : S11008.ReducesTo [0] S_

variable [Facts]

def fn {F : FTy → Type} [FloatOps F] (main_arg0 : FVec F S4x2048x4096 .f32) (main_arg1 : IVec S11008x2048 32) (main_arg2 : FVec F S11008 .f32) (main_arg3 : FVec F S11008 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S11008 .f32 := Host.absf main_arg2
  let main_cst_0 : FVec F S_ .f32 := constant S_ .f32 0x7F800000#32
  let main_v5 : FVec F S11008 .f32 := broadcastInDim S11008 ![] bcast_S_S11008 main_cst_0
  let main_v6 : IVec S11008 1 := cmpf .olt main_v4 main_v5
  let main_c_1 : IVec S_ 1 := constantI S_ 1 1#1
  let main_v7 : IVec S_ 1 := (fun x v => Host.reduce IntOp.andi x v reducesTo_S11008_S_d0 h_S_) main_v6 main_c_1
  let main_v8 : IVec S_ 1 := andi main_v3 main_v7
  let main_v9 : FVec F S11008 .f32 := Host.absf main_arg3
  let main_cst_2 : FVec F S_ .f32 := constant S_ .f32 0x7F800000#32
  let main_v10 : FVec F S11008 .f32 := broadcastInDim S11008 ![] bcast_S_S11008 main_cst_2
  let main_v11 : IVec S11008 1 := cmpf .olt main_v9 main_v10
  let main_c_3 : IVec S_ 1 := constantI S_ 1 1#1
  let main_v12 : IVec S_ 1 := (fun x v => Host.reduce IntOp.andi x v reducesTo_S11008_S_d0 h_S_) main_v11 main_c_3
  let main_v13 : IVec S_ 1 := andi main_v8 main_v12
  main_v13
-- ==== Kernel.lean ====
abbrev S4x2048x4096 : Shape := ⟨3, ![4, 2048, 4096]⟩
abbrev S11008x2048 : Shape := ⟨2, ![11008, 2048]⟩
abbrev S11008 : Shape := ⟨1, ![11008]⟩
abbrev S8192x4096 : Shape := ⟨2, ![8192, 4096]⟩
abbrev S8192x2048x2 : Shape := ⟨3, ![8192, 2048, 2]⟩
abbrev S8192x2048x1 : Shape := ⟨3, ![8192, 2048, 1]⟩
abbrev S8192x2048 : Shape := ⟨2, ![8192, 2048]⟩
abbrev S11008x1 : Shape := ⟨2, ![11008, 1]⟩
abbrev S1x11008 : Shape := ⟨2, ![1, 11008]⟩
abbrev S8192x11008 : Shape := ⟨2, ![8192, 11008]⟩
abbrev S1024x2048 : Shape := ⟨2, ![1024, 2048]⟩
abbrev S256x2048 : Shape := ⟨2, ![256, 2048]⟩
abbrev S256x1 : Shape := ⟨2, ![256, 1]⟩
abbrev S1x256 : Shape := ⟨2, ![1, 256]⟩
abbrev S1024x256 : Shape := ⟨2, ![1024, 256]⟩
abbrev S4x2048x11008 : Shape := ⟨3, ![4, 2048, 11008]⟩

abbrev nBuf : Space → Nat
  | .hbm => 16
  | .vmem => 12
  | .smem => 0
  | _ => 0

abbrev bufTy : (tb : Table) → Fin (tcTables nBuf tb) → BufTy
  | .hbm, ⟨0, _⟩ => ⟨S4x2048x4096, .f32⟩
  | .hbm, ⟨1, _⟩ => ⟨S11008x2048, .i32⟩
  | .hbm, ⟨2, _⟩ => ⟨S11008, .f32⟩
  | .hbm, ⟨3, _⟩ => ⟨S11008, .f32⟩
  | .hbm, ⟨4, _⟩ => ⟨S8192x4096, .f32⟩
  | .hbm, ⟨5, _⟩ => ⟨S8192x2048x2, .f32⟩
  | .hbm, ⟨6, _⟩ => ⟨S8192x2048x1, .f32⟩
  | .hbm, ⟨7, _⟩ => ⟨S8192x2048, .f32⟩
  | .hbm, ⟨8, _⟩ => ⟨S8192x2048, .bf16⟩
  | .hbm, ⟨9, _⟩ => ⟨S8192x2048x1, .f32⟩
  | .hbm, ⟨10, _⟩ => ⟨S8192x2048, .f32⟩
  | .hbm, ⟨11, _⟩ => ⟨S8192x2048, .bf16⟩
  | .hbm, ⟨12, _⟩ => ⟨S11008x1, .f32⟩
  | .hbm, ⟨13, _⟩ => ⟨S1x11008, .f32⟩
  | .hbm, ⟨14, _⟩ => ⟨S8192x11008, .f32⟩
  | .hbm, ⟨15, _⟩ => ⟨S4x2048x11008, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S256x2048, .i32⟩
  | .local _ .vmem, ⟨5, _⟩ => ⟨S256x2048, .i32⟩
  | .local _ .vmem, ⟨6, _⟩ => ⟨S256x1, .f32⟩
  | .local _ .vmem, ⟨7, _⟩ => ⟨S256x1, .f32⟩
  | .local _ .vmem, ⟨8, _⟩ => ⟨S1x256, .f32⟩
  | .local _ .vmem, ⟨9, _⟩ => ⟨S1x256, .f32⟩
  | .local _ .vmem, ⟨10, _⟩ => ⟨S1024x256, .f32⟩
  | .local _ .vmem, ⟨11, _⟩ => ⟨S1024x256, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 43], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x2048 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  shapeCasts_S4x2048x4096_S8192x4096 : S4x2048x4096.ShapeCasts S8192x4096
  shapeCasts_S8192x4096_S8192x2048x2 : S8192x4096.ShapeCasts S8192x2048x2
  slices_S8192x2048x2_S8192x2048x1_0_0_0 : S8192x2048x2.Slices ![0, 0, 0] S8192x2048x1
  shapeCasts_S8192x2048x1_S8192x2048 : S8192x2048x1.ShapeCasts S8192x2048
  bitsLt_bf16_f32 : FTy.bits .bf16 < FTy.bits .f32
  slices_S8192x2048x2_S8192x2048x1_0_0_1 : S8192x2048x2.Slices ![0, 0, 1] S8192x2048x1
  shapeCasts_S11008_S11008x1 : S11008.ShapeCasts S11008x1
  shapeCasts_S11008_S1x11008 : S11008.ShapeCasts S1x11008
  inb_S256x2048_S256x2048_0_0 : ∀ a, (![0, 0] : Fin 2 → Nat) a + S256x2048.size a ≤ S256x2048.size a
  h_S256x2048 : 0 < S256x2048.numel
  inb_S256x1_S256x1_0_0 : ∀ a, (![0, 0] : Fin 2 → Nat) a + S256x1.size a ≤ S256x1.size a
  h_S256x1 : 0 < S256x1.numel
  shapeCasts_S256x1_S256x1 : S256x1.ShapeCasts S256x1
  broadcasts_S256x1_S256x2048 : S256x1.Broadcasts S256x2048
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  inb_S1024x256_S1024x256_0_0 : ∀ a, (![0, 0] : Fin 2 → Nat) a + S1024x256.size a ≤ S1024x256.size a
  h_S1024x256 : 0 < S1024x256.numel
  shapeCasts_S8192x11008_S4x2048x11008 : S8192x11008.ShapeCasts S4x2048x11008
  dot_S1024x2048_S256x2048_S1024x256_1_1_0_0_n_n_wf : DotDims.WF S1024x2048 S256x2048 S1024x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S8192x2048.size a
  hwx0_0 : ∀ i : grid0.Coords, EltTy.bits .bf16 = 32 ∨ (Rect.block (s := S8192x2048) S1024x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x2048.size a ≤ S8192x2048.size a
  hwx0_1 : ∀ i : grid0.Coords, EltTy.bits .bf16 = 32 ∨ (Rect.block (s := S8192x2048) S1024x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x2048.size a ≤ S11008x2048.size a
  hwx0_2 : ∀ i : grid0.Coords, EltTy.bits .i32 = 32 ∨ (Rect.block (s := S11008x2048) S256x2048.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x1.size a ≤ S11008x1.size a
  hwx0_3 : ∀ i : grid0.Coords, EltTy.bits .f32 = 32 ∨ (Rect.block (s := S11008x1) S256x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x11008.size a
  hwx0_4 : ∀ i : grid0.Coords, EltTy.bits .f32 = 32 ∨ (Rect.block (s := S1x11008) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x256.size a ≤ S8192x11008.size a
  hwx0_5 : ∀ i : grid0.Coords, EltTy.bits .f32 = 32 ∨ (Rect.block (s := S8192x11008) S1024x256.size (cc0_transform_5 i) (hinb0_5 i)).WholeWords (EltTy.packing .f32)

variable [Facts₀]

def dot_S1024x2048_S256x2048_S1024x256_1_1_0_0_n_n : DotDims S1024x2048 S256x2048 S1024x256 where
  lhsContracting := [1]
  rhsContracting := [1]
  lhsNonContracting := [0]
  rhsNonContracting := [0]
  lhsBatch := []
  rhsBatch := []
  wf := dot_S1024x2048_S256x2048_S1024x256_1_1_0_0_n_n_wf

abbrev win0_0 : Pipeline.Window sig grid0 :=
  Pipeline.Window.ofSpec (Memref.whole main_v4) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S1024x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S256x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v8) S256x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v9) S1x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v10) S1024x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4x2048x4096 : Shape := ⟨3, ![4, 2048, 4096]⟩
abbrev S11008x2048 : Shape := ⟨2, ![11008, 2048]⟩
abbrev S11008 : Shape := ⟨1, ![11008]⟩
abbrev S_ : Shape := ⟨0, ![]⟩
abbrev S11008x2048x1 : Shape := ⟨3, ![11008, 2048, 1]⟩
abbrev S11008x2048x2 : Shape := ⟨3, ![11008, 2048, 2]⟩
abbrev S11008x4096 : Shape := ⟨2, ![11008, 4096]⟩
abbrev S11008x1 : Shape := ⟨2, ![11008, 1]⟩
abbrev S4x2048x11008 : Shape := ⟨3, ![4, 2048, 11008]⟩
abbrev S1x1x11008 : Shape := ⟨3, ![1, 1, 11008]⟩

abbrev nBuf : Space → Nat
  | .hbm => 31
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S11008x2048, .i32⟩
  | .hbm, ⟨2, _⟩ => ⟨S11008, .f32⟩
  | .hbm, ⟨3, _⟩ => ⟨S11008, .f32⟩
  | .hbm, ⟨4, _⟩ => ⟨S_, .i32⟩
  | .hbm, ⟨5, _⟩ => ⟨S11008x2048, .i32⟩
  | .hbm, ⟨6, _⟩ => ⟨S11008x2048, .i32⟩
  | .hbm, ⟨7, _⟩ => ⟨S_, .i32⟩
  | .hbm, ⟨8, _⟩ => ⟨S11008x2048, .i32⟩
  | .hbm, ⟨9, _⟩ => ⟨S11008x2048, .i32⟩
  | .hbm, ⟨10, _⟩ => ⟨S_, .i32⟩
  | .hbm, ⟨11, _⟩ => ⟨S11008x2048, .i32⟩
  | .hbm, ⟨12, _⟩ => ⟨S11008x2048, .i32⟩
  | .hbm, ⟨13, _⟩ => ⟨S_, .i32⟩
  | .hbm, ⟨14, _⟩ => ⟨S11008x2048, .i32⟩
  | .hbm, ⟨15, _⟩ => ⟨S11008x2048, .i32⟩
  | .hbm, ⟨16, _⟩ => ⟨S_, .i32⟩
  | .hbm, ⟨17, _⟩ => ⟨S11008x2048, .i32⟩
  | .hbm, ⟨18, _⟩ => ⟨S11008x2048, .i32⟩
  | .hbm, ⟨19, _⟩ => ⟨S11008x2048x1, .i32⟩
  | .hbm, ⟨20, _⟩ => ⟨S11008x2048x1, .i32⟩
  | .hbm, ⟨21, _⟩ => ⟨S11008x2048x2, .i32⟩
  | .hbm, ⟨22, _⟩ => ⟨S11008x4096, .i32⟩
  | .hbm, ⟨23, _⟩ => ⟨S11008x4096, .f32⟩
  | .hbm, ⟨24, _⟩ => ⟨S11008x1, .f32⟩
  | .hbm, ⟨25, _⟩ => ⟨S11008x4096, .f32⟩
  | .hbm, ⟨26, _⟩ => ⟨S11008x4096, .f32⟩
  | .hbm, ⟨27, _⟩ => ⟨S4x2048x11008, .f32⟩
  | .hbm, ⟨28, _⟩ => ⟨S1x1x11008, .f32⟩
  | .hbm, ⟨29, _⟩ => ⟨S4x2048x11008, .f32⟩
  | .hbm, ⟨30, _⟩ => ⟨S4x2048x11008, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_c_1 : Ref sig .tc := ⟨.hbm, 10, rfl⟩
abbrev main_v4 : Ref sig .tc := ⟨.hbm, 11, rfl⟩
abbrev main_v5 : Ref sig .tc := ⟨.hbm, 12, rfl⟩
abbrev main_c_2 : Ref sig .tc := ⟨.hbm, 13, rfl⟩
abbrev main_v6 : Ref sig .tc := ⟨.hbm, 14, rfl⟩
abbrev main_v7 : Ref sig .tc := ⟨.hbm, 15, rfl⟩
abbrev main_c_3 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩

abbrev nD : Nat := 1
abbrev τ : Topo := Topo.v7x

variable {F : FTy → Type} [FloatOps F]

class Facts₀ : Prop where
  bcast_S_S11008x2048 : S_.BroadcastsInDim S11008x2048 (![] : Fin 0 → Fin S11008x2048.rank)
  bcast_S11008x2048_S11008x2048x1_0_1 : S11008x2048.BroadcastsInDim S11008x2048x1 (![0, 1] : Fin 2 → Fin S11008x2048x1.rank)
  concatenates_S11008x2048x1_S11008x2048x1_S11008x2048x2_d2 : Shape.Concatenates [S11008x2048x1, S11008x2048x1] S11008x2048x2 2
  shapeCasts_S11008x2048x2_S11008x4096 : S11008x2048x2.ShapeCasts S11008x4096
  bcast_S11008_S11008x1_0 : S11008.BroadcastsInDim S11008x1 (![0] : Fin 1 → Fin S11008x1.rank)
  bcast_S11008x1_S11008x4096_0_1 : S11008x1.BroadcastsInDim S11008x4096 (![0, 1] : Fin 2 → Fin S11008x4096.rank)
  bcast_S11008_S1x1x11008_2 : S11008.BroadcastsInDim S1x1x11008 (![2] : Fin 1 → Fin S1x1x11008.rank)
  bcast_S1x1x11008_S4x2048x11008_0_1_2 : S1x1x11008.BroadcastsInDim S4x2048x11008 (![0, 1, 2] : Fin 3 → Fin S4x2048x11008.rank)
  dot_S4x2048x4096_S11008x4096_S4x2048x11008_2_1_01_0_n_n_wf : DotDims.WF S4x2048x4096 S11008x4096 S4x2048x11008 [2] [1] [0, 1] [0] [] []

variable [Facts₀]

def dot_S4x2048x4096_S11008x4096_S4x2048x11008_2_1_01_0_n_n : DotDims S4x2048x4096 S11008x4096 S4x2048x11008 where
  lhsContracting := [2]
  rhsContracting := [1]
  lhsNonContracting := [0, 1]
  rhsNonContracting := [0]
  lhsBatch := []
  rhsBatch := []
  wf := dot_S4x2048x4096_S11008x4096_S4x2048x11008_2_1_01_0_n_n_wf

class Facts : Prop extends Facts₀ where

variable [Facts]
-- ==== Proof.Spec.lean ====
/-
  What both programs compute, stated once with no program in sight.

  A packed word holds two signed 4-bit weights: the low nibble (bits 0-3) and the high nibble (bits 4-7), each
  re-centred by 8. Row `o` of the dequantized weight matrix lists them interleaved — column `2p` is the low nibble of
  word `p`, column `2p + 1` its high nibble — each converted to a real and scaled by the row's scale. The layer is
  `y[b, s, o] = (Σ_{i < 4096} x[b, s, i] · W[o, i]) + bias[o]` on the extended reals.

  The one law that joins the two programs is a regrouping of that sum: a sum over 4096 columns is the sum over the
  2048 even columns plus the sum over the 2048 odd columns. It holds in every commutative additive monoid, the
  extended reals included, so no finiteness of the inputs is used anywhere.
-/
import Idealize.ShloMosaic.PureOps.Ideal
import Idealize.ShloMosaic.Lib.ValueIdx
import Mathlib.Algebra.BigOperators.Fin
import Mathlib.Logic.Equiv.Fin.Basic

noncomputable section

namespace Cert.NibbleLinear

open Idealize.ShloMosaic Idealize.ShloMosaic.ValueIdx

/-- The signed low nibble of a packed word: bits 0-3, minus 8. -/
def lowNib (w : BitVec 32) : BitVec 32 := IntOp.subi (IntOp.andi w 15#32) 8#32

/-- The signed high nibble of a packed word: bits 4-7 (an arithmetic shift by 4, then the same mask), minus 8. -/
def highNib (w : BitVec 32) : BitVec 32 := IntOp.subi (IntOp.andi (IntOp.shrsi .host w 4#32) 15#32) 8#32

/-- A shift by 4 is below the word's width, where the vector unit's arithmetic shift and the host's are the same
    function. -/
theorem shrsi_vector_four (w : BitVec 32) : IntOp.shrsi .vector w 4#32 = IntOp.shrsi .host w 4#32 := by
  unfold IntOp.shrsi
  rw [if_pos (by decide), if_pos (by decide)]

/-- The integer weight in column `i` of row `o`: even columns are low nibbles, odd columns high nibbles, of word `i / 2`. -/
def nibAt (q : IVec ⟨2, ![11008, 2048]⟩ 32) (o : Fin 11008) (i : Fin 4096) : BitVec 32 :=
  if i.val % 2 = 0 then lowNib (q (ix2 o ⟨i.val / 2, by have := i.isLt; omega⟩))
  else highNib (q (ix2 o ⟨i.val / 2, by have := i.isLt; omega⟩))

/-- The dequantized weight `W[o, i]`: the integer weight as a real, times the row's scale. -/
def weight (q : IVec ⟨2, ![11008, 2048]⟩ 32) (s : FVec Ideal ⟨1, ![11008]⟩ .f32) (o : Fin 11008) (i : Fin 4096) : EReal :=
  FloatOps.sitofp (F := Ideal) .f32 (nibAt q o i) * s (ix1 o)

/-- The layer's result at coordinates: `y[b, s, o] = (Σ_i x[b, s, i] · W[o, i]) + bias[o]`. -/
def Gat (x : FVec Ideal ⟨3, ![4, 2048, 4096]⟩ .f32) (q : IVec ⟨2, ![11008, 2048]⟩ 32) (s b : FVec Ideal ⟨1, ![11008]⟩ .f32)
    (bb : Fin 4) (ss : Fin 2048) (o : Fin 11008) : EReal :=
  (∑ i : Fin 4096, x (ix3 bb ss i) * weight q s o i) + b (ix1 o)

/-- The layer's result as an array. -/
def G (x : FVec Ideal ⟨3, ![4, 2048, 4096]⟩ .f32) (q : IVec ⟨2, ![11008, 2048]⟩ 32) (s b : FVec Ideal ⟨1, ![11008]⟩ .f32) :
    FVec Ideal ⟨3, ![4, 2048, 11008]⟩ .f32 :=
  fun j => Gat x q s b (j 0) (j 1) (j 2)

theorem G_ix3 (x : FVec Ideal ⟨3, ![4, 2048, 4096]⟩ .f32) (q : IVec ⟨2, ![11008, 2048]⟩ 32) (s b : FVec Ideal ⟨1, ![11008]⟩ .f32)
    (bb : Fin 4) (ss : Fin 2048) (o : Fin 11008) : G x q s b (ix3 bb ss o) = Gat x q s b bb ss o := rfl

/-- A sum over 4096 columns, regrouped: the even columns, then the odd columns. -/
theorem sum_even_odd {M : Type*} [AddCommMonoid M] (f : Fin 4096 → M) :
    ∑ i : Fin 4096, f i
      = (∑ p : Fin 2048, f ⟨2 * p.val, by have := p.isLt; omega⟩) + ∑ p : Fin 2048, f ⟨2 * p.val + 1, by have := p.isLt; omega⟩ := by
  rw [← Finset.sum_add_distrib]
  rw [← Equiv.sum_comp (finProdFinEquiv : Fin 2048 × Fin 2 ≃ Fin (2048 * 2)) f, Fintype.sum_prod_type]
  refine Finset.sum_congr rfl fun p _ => ?_
  rw [Fin.sum_univ_two]
  congr 1
  · exact congrArg f (Fin.ext (by show (0 : Fin 2).val + 2 * p.val = 2 * p.val; simp))
  · exact congrArg f (Fin.ext (by show (1 : Fin 2).val + 2 * p.val = 2 * p.val + 1; simp; omega))

/-- Column `2p` of a row holds word `p`'s low nibble. -/
theorem nibAt_even (q : IVec ⟨2, ![11008, 2048]⟩ 32) (o : Fin 11008) (p : Fin 2048) :
    nibAt q o ⟨2 * p.val, by have := p.isLt; omega⟩ = lowNib (q (ix2 o p)) := by
  unfold nibAt
  rw [if_pos (by show 2 * p.val % 2 = 0; omega)]
  exact congrArg (fun k => lowNib (q (ix2 o k))) (Fin.ext (by show 2 * p.val / 2 = p.val; omega))

/-- Column `2p + 1` of a row holds word `p`'s high nibble. -/
theorem nibAt_odd (q : IVec ⟨2, ![11008, 2048]⟩ 32) (o : Fin 11008) (p : Fin 2048) :
    nibAt q o ⟨2 * p.val + 1, by have := p.isLt; omega⟩ = highNib (q (ix2 o p)) := by
  unfold nibAt
  rw [if_neg (by show ¬ (2 * p.val + 1) % 2 = 0; omega)]
  exact congrArg (fun k => highNib (q (ix2 o k))) (Fin.ext (by show (2 * p.val + 1) / 2 = p.val; omega))

/-- The layer's result with its sum regrouped by nibble: the even columns of `x` against the low nibbles, plus the odd
    columns against the high nibbles, plus the bias. -/
theorem Gat_split (x : FVec Ideal ⟨3, ![4, 2048, 4096]⟩ .f32) (q : IVec ⟨2, ![11008, 2048]⟩ 32) (s b : FVec Ideal ⟨1, ![11008]⟩ .f32)
    (bb : Fin 4) (ss : Fin 2048) (o : Fin 11008) :
    Gat x q s b bb ss o
      = ((∑ p : Fin 2048, x (ix3 bb ss ⟨2 * p.val, by have := p.isLt; omega⟩)
            * (FloatOps.sitofp (F := Ideal) .f32 (lowNib (q (ix2 o p))) * s (ix1 o)))
          + ∑ p : Fin 2048, x (ix3 bb ss ⟨2 * p.val + 1, by have := p.isLt; omega⟩)
            * (FloatOps.sitofp (F := Ideal) .f32 (highNib (q (ix2 o p))) * s (ix1 o)))
        + b (ix1 o) := by
  unfold Gat
  rw [sum_even_odd]
  unfold weight
  simp only [nibAt_even, nibAt_odd]

end Cert.NibbleLinear

end
-- ==== Proof.PayloadAt.lean ====
/-
  What the kernel body stores, read at one entry of the output block.

  The body unpacks the block of packed words into two operand matrices — the low nibbles and the high nibbles, each
  converted to a real and scaled by its row's scale — and multiplies the even-column block of `x` by the first and the
  odd-column block by the second, both contracted along the 2048 words of a row; it adds the two products and the bias
  row. At entry `(r, c)` of the 1024 × 256 output block that is

    (Σ_p xe[r, p] · (low(q[c, p]) · s[c])) + (Σ_p xo[r, p] · (high(q[c, p]) · s[c])) + bias[c].

  A change of float format is the identity on the extended reals, and a product into a zero accumulator is the plain sum.
-/
import proofs.«418256_j44092134261132_2_alg».proof.Proof.Gen.KernelIdeal.Skeleton
import proofs.«418256_j44092134261132_2_alg».proof.Proof.Spec
import Idealize.ShloMosaic.Lib.ValueIdx
import Idealize.ShloMosaic.Lib.Pipeline.Value
import Idealize.ShloMosaic.PureOps.Ideal.Laws

noncomputable section

namespace Cert.KernelIdeal.BodyValue

open Cert.KernelIdeal Cert.KernelIdeal.Gen Cert.NibbleLinear
open Idealize.ShloMosaic Idealize.ShloMosaic.TcCoe Idealize.ShloMosaic.ValueIdx

/-! ## The block product at an entry -/

theorem lhs_axis0 (i : S1024x256.Idx) (k : dot_S1024x2048_S256x2048_S1024x256_1_1_0_0_n_n.contr.Idx) :
    (dot_S1024x2048_S256x2048_S1024x256_1_1_0_0_n_n.lhsIdx i k 0).val = (i 0).val := by
  unfold DotDims.lhsIdx
  rw [dif_neg (show ¬(0 : Fin S1024x2048.rank) ∈ dot_S1024x2048_S256x2048_S1024x256_1_1_0_0_n_n.lhsBatch by decide), dif_pos (show (0 : Fin S1024x2048.rank) ∈ dot_S1024x2048_S256x2048_S1024x256_1_1_0_0_n_n.lhsNonContracting by decide)]
  rfl
theorem lhs_axis1 (i : S1024x256.Idx) (k : dot_S1024x2048_S256x2048_S1024x256_1_1_0_0_n_n.contr.Idx) :
    (dot_S1024x2048_S256x2048_S1024x256_1_1_0_0_n_n.lhsIdx i k 1).val = (k ⟨0, by decide⟩).val :=
  dot_S1024x2048_S256x2048_S1024x256_1_1_0_0_n_n.lhsIdx_val_of_single rfl i k
theorem rhs_axis0 (i : S1024x256.Idx) (k : dot_S1024x2048_S256x2048_S1024x256_1_1_0_0_n_n.contr.Idx) :
    (dot_S1024x2048_S256x2048_S1024x256_1_1_0_0_n_n.rhsIdx i k 0).val = (i 1).val := by
  unfold DotDims.rhsIdx
  rw [dif_neg (show ¬(0 : Fin S256x2048.rank) ∈ dot_S1024x2048_S256x2048_S1024x256_1_1_0_0_n_n.rhsBatch by decide), dif_pos (show (0 : Fin S256x2048.rank) ∈ dot_S1024x2048_S256x2048_S1024x256_1_1_0_0_n_n.rhsNonContracting by decide)]
  rfl
theorem rhs_axis1 (i : S1024x256.Idx) (k : dot_S1024x2048_S256x2048_S1024x256_1_1_0_0_n_n.contr.Idx) :
    (dot_S1024x2048_S256x2048_S1024x256_1_1_0_0_n_n.rhsIdx i k 1).val = (k ⟨0, by decide⟩).val :=
  dot_S1024x2048_S256x2048_S1024x256_1_1_0_0_n_n.rhsIdx_val_of_single rfl i k

/-- A 1024 × 2048 block times the transpose of a 256 × 2048 block, into zeros: entry `(r, c)` is the sum over the
    2048 shared columns of row `r` of the first against row `c` of the second. -/
theorem block_product_apply (a : FVec Ideal S1024x2048 .bf16) (w : FVec Ideal S256x2048 .bf16) (r : Fin 1024) (c : Fin 256) :
    FloatOps.matmul dot_S1024x2048_S256x2048_S1024x256_1_1_0_0_n_n none a w (constant S1024x256 .f32 0x00000000#32) (ix2 r c)
      = ∑ p : Fin 2048, a (ix2 r p) * w (ix2 c p) := by
  rw [Ideal.matmul_constant_zero_apply, ← Equiv.sum_comp (ValueIdx.contrEquiv1 dot_S1024x2048_S256x2048_S1024x256_1_1_0_0_n_n 2048 rfl rfl).symm]
  refine Finset.sum_congr rfl fun p _ => ?_
  have hp := ValueIdx.contrEquiv1_symm_val dot_S1024x2048_S256x2048_S1024x256_1_1_0_0_n_n 2048 rfl rfl p
  have el : dot_S1024x2048_S256x2048_S1024x256_1_1_0_0_n_n.lhsIdx (ix2 r c) ((ValueIdx.contrEquiv1 dot_S1024x2048_S256x2048_S1024x256_1_1_0_0_n_n 2048 rfl rfl).symm p) = ix2 r p := funext fun ax => Fin.ext (by
    match ax with
    | ⟨0, _⟩ => exact lhs_axis0 _ _
    | ⟨1, _⟩ => exact (lhs_axis1 _ _).trans hp)
  have er : dot_S1024x2048_S256x2048_S1024x256_1_1_0_0_n_n.rhsIdx (ix2 r c) ((ValueIdx.contrEquiv1 dot_S1024x2048_S256x2048_S1024x256_1_1_0_0_n_n 2048 rfl rfl).symm p) = ix2 c p := funext fun ax => Fin.ext (by
    match ax with
    | ⟨0, _⟩ => exact rhs_axis0 _ _
    | ⟨1, _⟩ => exact (rhs_axis1 _ _).trans hp)
  rw [el, er]

/-! ## The two dequantized operands at an entry -/

/-- The scale column, broadcast along a row of words, read at `(c, p)`: the scale of row `c`. -/
theorem scale_bcast_apply (s : Vec Ideal S256x1 .f32) (c : Fin 256) (p : Fin 2048) :
    broadcastTo S256x2048 s broadcasts_S256x1_S256x2048 (ix2 c p) = s (ix2 c (0 : Fin 1)) :=
  by exact broadcastTo_apply s broadcasts_S256x1_S256x2048 (ix2 c p) (ix2 c (0 : Fin 1)) (fun ax => by
    match ax with
    | ⟨0, _⟩ => show c.val = if (256 : Nat) = 1 then 0 else c.val; rw [if_neg (by decide)]
    | ⟨1, _⟩ => show (0 : Nat) = if (1 : Nat) = 1 then 0 else p.val; rw [if_pos rfl])

/-- The bias row, broadcast down the block's rows, read at `(r, c)`: the bias of column `c`. -/
theorem bias_bcast_apply (b : Vec Ideal S1x256 .f32) (r : Fin 1024) (c : Fin 256) :
    broadcastTo S1024x256 b broadcasts_S1x256_S1024x256 (ix2 r c) = b (ix2 (0 : Fin 1) c) :=
  by exact broadcastTo_apply b broadcasts_S1x256_S1024x256 (ix2 r c) (ix2 (0 : Fin 1) c) (fun ax => by
    match ax with
    | ⟨0, _⟩ => show (0 : Nat) = if (1 : Nat) = 1 then 0 else r.val; rw [if_pos rfl]
    | ⟨1, _⟩ => show c.val = if (256 : Nat) = 1 then 0 else c.val; rw [if_neg (by decide)])

/-! ## The payload at an entry -/

/-- Entry `(r, c)` of what the body stores, from the blocks it loads. -/
theorem payload_apply (q : Vec Ideal S256x2048 .i32) (s : Vec Ideal S256x1 .f32) (xe xo : Vec Ideal S1024x2048 .bf16)
    (b : Vec Ideal S1x256 .f32) (r : Fin 1024) (c : Fin 256) :
    k0_pay1 (F := Ideal) q s xe xo b (ix2 r c)
      = ((∑ p : Fin 2048, xe (ix2 r p) * (FloatOps.sitofp (F := Ideal) .f32 (lowNib (q (ix2 c p))) * s (ix2 c (0 : Fin 1))))
          + ∑ p : Fin 2048, xo (ix2 r p) * (FloatOps.sitofp (F := Ideal) .f32 (highNib (q (ix2 c p))) * s (ix2 c (0 : Fin 1))))
        + b (ix2 (0 : Fin 1) c) := by
  unfold k0_pay1
  simp only [matmul, shapeCast_self]
  rw [addf_apply, addf_apply, bias_bcast_apply, block_product_apply, block_product_apply]
  refine congrArg (· + b (ix2 (0 : Fin 1) c)) (congrArg₂ (· + ·) (Finset.sum_congr rfl fun p _ => ?_) (Finset.sum_congr rfl fun p _ => ?_))
  · refine congrArg (xe (ix2 r p) * ·) ?_
    rw [truncf_apply, mulf_apply, scale_bcast_apply]
    rfl
  · refine congrArg (xo (ix2 r p) * ·) ?_
    rw [truncf_apply, mulf_apply, scale_bcast_apply]
    show FloatOps.sitofp (F := Ideal) .f32 (IntOp.subi (IntOp.andi (IntOp.shrsi .vector (q (ix2 c p)) 4#32) 15#32) 8#32) * s (ix2 c (0 : Fin 1)) = _
    rw [shrsi_vector_four]
    rfl

end Cert.KernelIdeal.BodyValue

end
-- ==== Proof.RegionValue.lean ====
/-
  The output array after the region.

  The grid has 8 × 43 points; point `(i, j)` computes the 1024 × 256 block at block-row `i`, block-column `j` of the
  8192 × 11008 output from rows `1024·i …` of the two column views of `x`, rows `256·j …` of the packed words and of the
  scale column, and columns `256·j …` of the bias row. Every block is the restriction of ONE function of the operand
  arrays,

    H[M, o] = (Σ_p xe[M, p] · (low(q[o, p]) · s[o])) + (Σ_p xo[M, p] · (high(q[o, p]) · s[o])) + bias[o],

  and the blocks tile the output (the block that holds `(M, o)` is `(M / 1024, o / 256)`), so the array ends at `H`.
-/
import proofs.«418256_j44092134261132_2_alg».proof.Proof.Gen.KernelIdeal.Frame
import proofs.«418256_j44092134261132_2_alg».proof.Proof.PayloadAt
import Idealize.ShloMosaic.Lib.Pipeline.Value
import Idealize.ShloMosaic.Lib.ValueIdx

set_option maxRecDepth 16384

noncomputable section

namespace Cert.KernelIdeal.RegionValue

open Cert.KernelIdeal Cert.KernelIdeal.Gen Cert.KernelIdeal.BodyValue Cert.NibbleLinear
open Idealize.ShloMosaic Idealize.ShloMosaic.TcCoe Idealize.ShloMosaic.ValueIdx Idealize.SL.Sem
open Idealize.ShloMosaic.Pipeline (Dat Cfg Window)

/-! ## The whole-array function -/

/-- The output at row `M`, column `o`, from the operand arrays as the region finds them. -/
def Hat (XE XO : FVec Ideal S8192x2048 .bf16) (Q : IVec S11008x2048 32) (S8 : FVec Ideal S11008x1 .f32) (B9 : FVec Ideal S1x11008 .f32)
    (M : Fin 8192) (o : Fin 11008) : EReal :=
  ((∑ p : Fin 2048, XE (ix2 M p) * (FloatOps.sitofp (F := Ideal) .f32 (lowNib (Q (ix2 o p))) * S8 (ix2 o (0 : Fin 1))))
      + ∑ p : Fin 2048, XO (ix2 M p) * (FloatOps.sitofp (F := Ideal) .f32 (highNib (Q (ix2 o p))) * S8 (ix2 o (0 : Fin 1))))
    + B9 (ix2 (0 : Fin 1) o)

/-- The same as an array. -/
def H (XE XO : FVec Ideal S8192x2048 .bf16) (Q : IVec S11008x2048 32) (S8 : FVec Ideal S11008x1 .f32) (B9 : FVec Ideal S1x11008 .f32) :
    FVec Ideal S8192x11008 .f32 :=
  fun i => Hat XE XO Q S8 B9 (i 0) (i 1)

/-- A block's payload is the whole-array function at the block's place: if the loaded blocks are block-row `bi` of the
    two column views, block-row `bj` of the words and of the scale column and block-column `bj` of the bias row, entry
    `y` of the payload is `H` at `(1024·bi + y₀, 256·bj + y₁)`. -/
theorem block_fun (q : Vec Ideal S256x2048 .i32) (s : Vec Ideal S256x1 .f32) (xe xo : Vec Ideal S1024x2048 .bf16) (b : Vec Ideal S1x256 .f32)
    (XE XO : FVec Ideal S8192x2048 .bf16) (Q : IVec S11008x2048 32) (S8 : FVec Ideal S11008x1 .f32) (B9 : FVec Ideal S1x11008 .f32)
    (bi bj : Nat) (hbi : bi ≤ 7) (hbj : bj ≤ 42)
    (hxe : ∀ (r : Fin 1024) (p : Fin 2048), xe (ix2 r p) = XE (ix2 (⟨bi * 1024 + r.val, by have := r.isLt; omega⟩ : Fin 8192) p))
    (hxo : ∀ (r : Fin 1024) (p : Fin 2048), xo (ix2 r p) = XO (ix2 (⟨bi * 1024 + r.val, by have := r.isLt; omega⟩ : Fin 8192) p))
    (hq : ∀ (cc : Fin 256) (p : Fin 2048), q (ix2 cc p) = Q (ix2 (⟨bj * 256 + cc.val, by have := cc.isLt; omega⟩ : Fin 11008) p))
    (hs : ∀ cc : Fin 256, s (ix2 cc (0 : Fin 1)) = S8 (ix2 (⟨bj * 256 + cc.val, by have := cc.isLt; omega⟩ : Fin 11008) (0 : Fin 1)))
    (hb : ∀ cc : Fin 256, b (ix2 (0 : Fin 1) cc) = B9 (ix2 (0 : Fin 1) (⟨bj * 256 + cc.val, by have := cc.isLt; omega⟩ : Fin 11008)))
    (r : Fin 1024) (cc : Fin 256) :
    k0_pay1 (F := Ideal) q s xe xo b (ix2 r cc)
      = Hat XE XO Q S8 B9 (⟨bi * 1024 + r.val, by have := r.isLt; omega⟩ : Fin 8192) (⟨bj * 256 + cc.val, by have := cc.isLt; omega⟩ : Fin 11008) := by
  rw [payload_apply]
  unfold Hat
  simp only [hxe, hxo, hq, hs, hb]

/-! ## The schedule -/

theorem hz : (![0, 0] : Fin 2 → Nat) = fun _ => 0 := funext fun a => by fin_cases a <;> rfl

/-- The printed index maps, decided over the grid: the two column views move with the output's block-row, the words, the
    scale column and the bias row with its block-column, and the output's block indices stay in range. -/
theorem idx_facts : ∀ t : Fin cfg0.N,
    win0_0.index t (0 : Fin 2) = win0_5.index t (0 : Fin 2) ∧ win0_0.index t (1 : Fin 2) = 0
    ∧ win0_1.index t (0 : Fin 2) = win0_5.index t (0 : Fin 2) ∧ win0_1.index t (1 : Fin 2) = 0
    ∧ win0_2.index t (0 : Fin 2) = win0_5.index t (1 : Fin 2) ∧ win0_2.index t (1 : Fin 2) = 0
    ∧ win0_3.index t (0 : Fin 2) = win0_5.index t (1 : Fin 2) ∧ win0_3.index t (1 : Fin 2) = 0
    ∧ win0_4.index t (0 : Fin 2) = 0 ∧ win0_4.index t (1 : Fin 2) = win0_5.index t (1 : Fin 2)
    ∧ win0_5.index t (0 : Fin 2) ≤ 7 ∧ win0_5.index t (1 : Fin 2) ≤ 42 :=
  (by decide +kernel : ∀ t : Fin grid0.N, _)

/-- Every block of the output is some point's. -/
theorem idx_onto : ∀ (q0 : Fin 8) (q1 : Fin 43), ∃ t : Fin cfg0.N, win0_5.index t = ![q0.val, q1.val] :=
  (by decide +kernel : ∀ (q0 : Fin 8) (q1 : Fin 43), ∃ t : Fin grid0.N, win0_5.index t = ![q0.val, q1.val])

variable (m : (ℓ : Loc nD τ sig) → Buf (Elt Ideal) ℓ)

/-- The whole-array function of the arrays the region finds. -/
abbrev HV (c : Dev nD) : FVec Ideal S8192x11008 .f32 :=
  H (V m c main_v4) (V m c main_v7) (V m c main_arg1) (V m c main_v8) (V m c main_v9)

/-! ## What a point writes back -/

/-- What point `t` writes back is block `t` of the whole-array function. -/
theorem flushed_eq (c : Dev nD) (t : Fin cfg0.N) :
    (dats m 0 c).flushed 5 t = ((cfg0.win 5).blk t).view.read (Elt Ideal) (HV m c) := by
  show (cfg0.win 5).cut (grid0.coords t) ((dats m 0 c).after 5 t) = _
  rw [after0_5]
  unfold out0_5
  rw [View.canon_unit_zero hz]
  simp only [View.ld_unit_zero (S := S256x2048) hz, View.ld_unit_zero (S := S256x1) hz, View.ld_unit_zero (S := S1024x2048) hz,
    View.ld_unit_zero (S := S1x256) hz]
  obtain ⟨e00, e01, e10, e11, e20, e21, e30, e31, e40, e41, b0, b1⟩ := idx_facts t
  funext j
  obtain ⟨r, cc, rfl⟩ : ∃ (r : Fin 1024) (cc : Fin 256), j = ix2 r cc := ⟨j 0, j 1, eq_ix2 j⟩
  refine (block_fun (iblk m c 2 t) (iblk m c 3 t) (iblk m c 0 t) (iblk m c 1 t) (iblk m c 4 t)
    (V m c main_v4) (V m c main_v7) (V m c main_arg1) (V m c main_v8) (V m c main_v9)
    (win0_5.index t (0 : Fin 2)) (win0_5.index t (1 : Fin 2)) b0 b1 ?_ ?_ ?_ ?_ ?_ r cc).trans ?_
  · intro r p
    show V m c main_v4 (((cfg0.win 0).blk t).view.emb (ix2 r p)) = _
    refine congrArg (V m c main_v4) (funext fun a => Fin.ext ?_)
    match a with
    | ⟨0, _⟩ => show win0_0.index t (0 : Fin 2) * 1024 + 1 * r.val = win0_5.index t (0 : Fin 2) * 1024 + r.val; omega
    | ⟨1, _⟩ => show win0_0.index t (1 : Fin 2) * 2048 + 1 * p.val = p.val; omega
  · intro r p
    show V m c main_v7 (((cfg0.win 1).blk t).view.emb (ix2 r p)) = _
    refine congrArg (V m c main_v7) (funext fun a => Fin.ext ?_)
    match a with
    | ⟨0, _⟩ => show win0_1.index t (0 : Fin 2) * 1024 + 1 * r.val = win0_5.index t (0 : Fin 2) * 1024 + r.val; omega
    | ⟨1, _⟩ => show win0_1.index t (1 : Fin 2) * 2048 + 1 * p.val = p.val; omega
  · intro cc p
    show V m c main_arg1 (((cfg0.win 2).blk t).view.emb (ix2 cc p)) = _
    refine congrArg (V m c main_arg1) (funext fun a => Fin.ext ?_)
    match a with
    | ⟨0, _⟩ => show win0_2.index t (0 : Fin 2) * 256 + 1 * cc.val = win0_5.index t (1 : Fin 2) * 256 + cc.val; omega
    | ⟨1, _⟩ => show win0_2.index t (1 : Fin 2) * 2048 + 1 * p.val = p.val; omega
  · intro cc
    show V m c main_v8 (((cfg0.win 3).blk t).view.emb (ix2 cc (0 : Fin 1))) = _
    refine congrArg (V m c main_v8) (funext fun a => Fin.ext ?_)
    match a with
    | ⟨0, _⟩ => show win0_3.index t (0 : Fin 2) * 256 + 1 * cc.val = win0_5.index t (1 : Fin 2) * 256 + cc.val; omega
    | ⟨1, _⟩ => show win0_3.index t (1 : Fin 2) * 1 + 1 * 0 = 0; omega
  · intro cc
    show V m c main_v9 (((cfg0.win 4).blk t).view.emb (ix2 (0 : Fin 1) cc)) = _
    refine congrArg (V m c main_v9) (funext fun a => Fin.ext ?_)
    match a with
    | ⟨0, _⟩ => show win0_4.index t (0 : Fin 2) * 1 + 1 * 0 = 0; omega
    | ⟨1, _⟩ => show win0_4.index t (1 : Fin 2) * 256 + 1 * cc.val = win0_5.index t (1 : Fin 2) * 256 + cc.val; omega
  · show _ = HV m c (((cfg0.win 5).blk t).view.emb (ix2 r cc))
    unfold HV H
    have h0 : (⟨win0_5.index t (0 : Fin 2) * 1024 + r.val, by have := r.isLt; omega⟩ : Fin 8192)
        = ((cfg0.win 5).blk t).view.emb (ix2 r cc) 0 := Fin.ext (by
      show win0_5.index t (0 : Fin 2) * 1024 + r.val = win0_5.index t (0 : Fin 2) * 1024 + 1 * r.val; omega)
    have h1 : (⟨win0_5.index t (1 : Fin 2) * 256 + cc.val, by have := cc.isLt; omega⟩ : Fin 11008)
        = ((cfg0.win 5).blk t).view.emb (ix2 r cc) 1 := Fin.ext (by
      show win0_5.index t (1 : Fin 2) * 256 + cc.val = win0_5.index t (1 : Fin 2) * 256 + 1 * cc.val; omega)
    rw [h0, h1]

/-! ## The cover and the final array -/

/-- An index of the output is in point `t`'s block iff each coordinate is in the block's range on its axis. -/
theorem mem_blk (t : Fin cfg0.N) (i : S8192x11008.Idx) :
    i ∈ ((cfg0.win 5).blk t).view.set
      ↔ ∀ a : Fin 2, win0_5.index t a * S1024x256.size a ≤ (i a).val ∧ (i a).val < win0_5.index t a * S1024x256.size a + S1024x256.size a := by
  show i ∈ ((View.whole main_v10).slice (win0_5.rect t)).set ↔ _
  rw [View.set_slice_whole, Rect.mem_set_unit]
  exact Iff.rfl

/-- Every index of the output is in some point's block: the blocks tile it. -/
theorem cover (i : S8192x11008.Idx) : ∃ t : Fin cfg0.N, (cfg0.win 5).flush t = true ∧ i ∈ ((cfg0.win 5).blk t).view.set := by
  have hi0 : (i 0).val < 8192 := (i 0).isLt
  have hi1 : (i 1).val < 11008 := (i 1).isLt
  obtain ⟨t, ht⟩ := idx_onto ⟨(i 0).val / 1024, by omega⟩ ⟨(i 1).val / 256, by omega⟩
  have q0 : win0_5.index t (0 : Fin 2) = (i 0).val / 1024 := congrFun ht 0
  have q1 : win0_5.index t (1 : Fin 2) = (i 1).val / 256 := congrFun ht 1
  refine ⟨t, flush0_5 t, ?_⟩
  rw [mem_blk]
  intro a
  match a with
  | ⟨0, _⟩ => show win0_5.index t (0 : Fin 2) * 1024 ≤ (i 0).val ∧ (i 0).val < win0_5.index t (0 : Fin 2) * 1024 + 1024; omega
  | ⟨1, _⟩ => show win0_5.index t (1 : Fin 2) * 256 ≤ (i 1).val ∧ (i 1).val < win0_5.index t (1 : Fin 2) * 256 + 256; omega

/-- The output array after the region is the whole-array function of the arrays the region finds. -/
theorem final (c : Dev nD) : (dats m 0 c).arrAt 5 cfg0.N = HV m c :=
  (dats m 0 c).arrAt_eq_of_cover 5 (HV m c) (fun t _ => flushed_eq m c t) (cover)

end Cert.KernelIdeal.RegionValue

end
-- ==== Proof.EntryArrays.lean ====
/-
  What the region finds in its operand arrays.

  Before the region the program views `x` as 8192 rows of 2048 pairs and keeps one member of every pair: the first
  members are the even columns of `x`, the second members the odd columns (the change to a 16-bit format that follows is
  the identity on the extended reals). Row `M` of the 8192 is row `(M / 2048, M % 2048)` of `x`. The scale is viewed as
  a column and the bias as a row. Read at an index:

    xe[M, p] = x[M / 2048, M % 2048, 2p]      xo[M, p] = x[M / 2048, M % 2048, 2p + 1]
    scale column [o, 0] = scale[o]            bias row [0, o] = bias[o]

  and the packed words reach the region untouched.
-/
import proofs.«418256_j44092134261132_2_alg».proof.Proof.Gen.KernelIdeal.Frame
import Idealize.ShloMosaic.Lib.StableHlo.Run
import Idealize.ShloMosaic.Lib.Pipeline.Value
import Idealize.ShloMosaic.Lib.ValueIdx

noncomputable section

namespace Cert.KernelIdeal.EntryValue

open Cert.KernelIdeal Cert.KernelIdeal.Gen
open Idealize.ShloMosaic Idealize.ShloMosaic.TcCoe Idealize.ShloMosaic.ValueIdx Idealize.SL.Sem Idealize.ShloMosaic.StableHlo

/-- Member `k` of pair `p` in row `M` of `x` viewed as 8192 rows of 2048 pairs: column `2p + k` of row
    `(M / 2048, M % 2048)` of `x`. -/
theorem pair_member_apply (x : FVec Ideal S4x2048x4096 .f32) (k : Nat) (hk : k < 2)
    (hs : S8192x2048x2.Slices ![0, 0, k] S8192x2048x1) (M : Fin 8192) (p : Fin 2048) :
    shapeCast S8192x2048 (extractStridedSlice S8192x2048x1 ![0, 0, k]
        (shapeCast S8192x2048x2 (shapeCast S8192x4096 x shapeCasts_S4x2048x4096_S8192x4096) shapeCasts_S8192x4096_S8192x2048x2) hs)
        shapeCasts_S8192x2048x1_S8192x2048 (ix2 M p)
      = x (ix3 (⟨M.val / 2048, by have := M.isLt; omega⟩ : Fin 4) (⟨M.val % 2048, by omega⟩ : Fin 2048)
            (⟨2 * p.val + k, by have := p.isLt; omega⟩ : Fin 4096)) := by
  have hM : M.val < 8192 := M.isLt
  have hp : p.val < 2048 := p.isLt
  refine (shapeCast_apply _ shapeCasts_S8192x2048x1_S8192x2048 (ix2 M p) (ix3 M p (0 : Fin 1)) (by
    rw [Shape.rowMajor_val_three, Shape.rowMajor_val_two]
    show (M.val * 2048 + p.val) * 1 + 0 = M.val * 2048 + p.val
    omega)).trans ?_
  refine (extractStridedSlice_apply ![0, 0, k] _ hs (ix3 M p (0 : Fin 1)) (ix3 M p (⟨k, hk⟩ : Fin 2)) (fun a => by
    match a with
    | ⟨0, _⟩ => show M.val = 0 + M.val; omega
    | ⟨1, _⟩ => show p.val = 0 + p.val; omega
    | ⟨2, _⟩ => show k = k + 0; omega)).trans ?_
  refine (shapeCast_apply _ shapeCasts_S8192x4096_S8192x2048x2 (ix3 M p (⟨k, hk⟩ : Fin 2))
    (ix2 M (⟨2 * p.val + k, by omega⟩ : Fin 4096)) (by
    rw [Shape.rowMajor_val_two, Shape.rowMajor_val_three]
    show M.val * 4096 + (2 * p.val + k) = (M.val * 2048 + p.val) * 2 + k
    omega)).trans ?_
  exact shapeCast_apply x shapeCasts_S4x2048x4096_S8192x4096 (ix2 M (⟨2 * p.val + k, by omega⟩ : Fin 4096))
    (ix3 (⟨M.val / 2048, by omega⟩ : Fin 4) (⟨M.val % 2048, by omega⟩ : Fin 2048) (⟨2 * p.val + k, by omega⟩ : Fin 4096)) (by
    rw [Shape.rowMajor_val_three, Shape.rowMajor_val_two]
    show (M.val / 2048 * 2048 + M.val % 2048) * 4096 + (2 * p.val + k) = M.val * 4096 + (2 * p.val + k)
    omega)

variable (m : (ℓ : Loc nD τ sig) → Buf (Elt Ideal) ℓ)

/-- The even-column operand at `(M, p)`. -/
theorem even_apply (c : Dev nD) (M : Fin 8192) (p : Fin 2048) :
    (V m c main_v4 : S8192x2048.Idx → EReal) (ix2 M p)
      = m ((c : Thread nD τ).loc main_arg0) (ix3 (⟨M.val / 2048, by have := M.isLt; omega⟩ : Fin 4) (⟨M.val % 2048, by omega⟩ : Fin 2048)
          (⟨2 * p.val, by have := p.isLt; omega⟩ : Fin 4096)) := by
  have e : (V m c main_v4 : S8192x2048.Idx → EReal)
      = truncf (F := Ideal) .bf16 (shapeCast S8192x2048 (extractStridedSlice S8192x2048x1 ![0, 0, 0]
          (shapeCast S8192x2048x2 (shapeCast S8192x4096 (m ((c : Thread nD τ).loc main_arg0)) shapeCasts_S4x2048x4096_S8192x4096) shapeCasts_S8192x4096_S8192x2048x2)
          slices_S8192x2048x2_S8192x2048x1_0_0_0) shapeCasts_S8192x2048x1_S8192x2048) bitsLt_bf16_f32 := by
    show StableHlo.after hostOps0 (fun b => m (c, b)) (Proc.devRef .tc main_v4) = _
    after_results
    rfl
  rw [e, truncf_apply]
  exact pair_member_apply _ 0 (by decide) slices_S8192x2048x2_S8192x2048x1_0_0_0 M p

/-- The odd-column operand at `(M, p)`. -/
theorem odd_apply (c : Dev nD) (M : Fin 8192) (p : Fin 2048) :
    (V m c main_v7 : S8192x2048.Idx → EReal) (ix2 M p)
      = m ((c : Thread nD τ).loc main_arg0) (ix3 (⟨M.val / 2048, by have := M.isLt; omega⟩ : Fin 4) (⟨M.val % 2048, by omega⟩ : Fin 2048)
          (⟨2 * p.val + 1, by have := p.isLt; omega⟩ : Fin 4096)) := by
  have e : (V m c main_v7 : S8192x2048.Idx → EReal)
      = truncf (F := Ideal) .bf16 (shapeCast S8192x2048 (extractStridedSlice S8192x2048x1 ![0, 0, 1]
          (shapeCast S8192x2048x2 (shapeCast S8192x4096 (m ((c : Thread nD τ).loc main_arg0)) shapeCasts_S4x2048x4096_S8192x4096) shapeCasts_S8192x4096_S8192x2048x2)
          slices_S8192x2048x2_S8192x2048x1_0_0_1) shapeCasts_S8192x2048x1_S8192x2048) bitsLt_bf16_f32 := by
    show StableHlo.after hostOps0 (fun b => m (c, b)) (Proc.devRef .tc main_v7) = _
    after_results
    rfl
  rw [e, truncf_apply]
  exact pair_member_apply _ 1 (by decide) slices_S8192x2048x2_S8192x2048x1_0_0_1 M p

/-- The scale column at `(o, 0)`. -/
theorem scale_apply (c : Dev nD) (o : Fin 11008) :
    (V m c main_v8 : S11008x1.Idx → EReal) (ix2 o (0 : Fin 1)) = m ((c : Thread nD τ).loc main_arg2) (ix1 o) := by
  have e : (V m c main_v8 : S11008x1.Idx → EReal) = (shapeCast S11008x1 (m ((c : Thread nD τ).loc main_arg2)) shapeCasts_S11008_S11008x1 : FVec Ideal S11008x1 .f32) := by
    show StableHlo.after hostOps0 (fun b => m (c, b)) (Proc.devRef .tc main_v8) = _
    after_results
    rfl
  rw [e]
  exact shapeCast_apply _ shapeCasts_S11008_S11008x1 (ix2 o (0 : Fin 1)) (ix1 o) (by
    rw [Shape.rowMajor_val_one, Shape.rowMajor_val_two]
    show o.val = o.val * 1 + 0
    omega)

/-- The bias row at `(0, o)`. -/
theorem bias_apply (c : Dev nD) (o : Fin 11008) :
    (V m c main_v9 : S1x11008.Idx → EReal) (ix2 (0 : Fin 1) o) = m ((c : Thread nD τ).loc main_arg3) (ix1 o) := by
  have e : (V m c main_v9 : S1x11008.Idx → EReal) = (shapeCast S1x11008 (m ((c : Thread nD τ).loc main_arg3)) shapeCasts_S11008_S1x11008 : FVec Ideal S1x11008 .f32) := by
    show StableHlo.after hostOps0 (fun b => m (c, b)) (Proc.devRef .tc main_v9) = _
    after_results
    rfl
  rw [e]
  exact shapeCast_apply _ shapeCasts_S11008_S1x11008 (ix2 (0 : Fin 1) o) (ix1 o) (by
    rw [Shape.rowMajor_val_one, Shape.rowMajor_val_two]
    show o.val = 0 * 11008 + o.val
    omega)

end Cert.KernelIdeal.EntryValue

end
-- ==== Proof.ProgramValue.lean ====
/-
  The kernel program's result is the layer's result `G`.

  After the region the program views the 8192 × 11008 output as 4 × 2048 × 11008: entry `(b, s, o)` is entry
  `(2048·b + s, o)`. Row `2048·b + s` of the two column views of `x` is row `(b, s)` of `x` at its even and at its odd
  columns, the scale column and the bias row hold `scale[o]` and `bias[o]`, and the words are the argument's. So the
  output there is the layer's sum regrouped by nibble, which is the layer's sum.
-/
import proofs.«418256_j44092134261132_2_alg».proof.Proof.RegionValue
import proofs.«418256_j44092134261132_2_alg».proof.Proof.EntryArrays
import Idealize.ShloMosaic.Lib.StableHlo.Run

noncomputable section

namespace Cert.KernelIdeal.ProgramValue

open Cert.KernelIdeal Cert.KernelIdeal.Gen Cert.KernelIdeal.RegionValue Cert.KernelIdeal.EntryValue Cert.NibbleLinear
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-- The layer's result of the program's four arguments on core `c`. -/
abbrev Gm (c : Dev nD) : FVec Ideal S4x2048x11008 .f32 :=
  G (m ((c : Thread nD τ).loc main_arg0)) (m ((c : Thread nD τ).loc main_arg1)) (m ((c : Thread nD τ).loc main_arg2))
    (m ((c : Thread nD τ).loc main_arg3))

/-- The output array at row `2048·b + s`, column `o`, is the layer's result at `(b, s, o)`. -/
theorem H_row (c : Dev nD) (bb : Fin 4) (ss : Fin 2048) (o : Fin 11008) :
    HV m c (ix2 (⟨bb.val * 2048 + ss.val, by have := bb.isLt; have := ss.isLt; omega⟩ : Fin 8192) o)
      = Gat (m ((c : Thread nD τ).loc main_arg0)) (m ((c : Thread nD τ).loc main_arg1)) (m ((c : Thread nD τ).loc main_arg2))
          (m ((c : Thread nD τ).loc main_arg3)) bb ss o := by
  have hb : bb.val < 4 := bb.isLt
  have hs : ss.val < 2048 := ss.isLt
  rw [Gat_split]
  have hrow : ∀ k : Fin 4096, (ix3 (⟨(bb.val * 2048 + ss.val) / 2048, by omega⟩ : Fin 4) (⟨(bb.val * 2048 + ss.val) % 2048, by omega⟩ : Fin 2048) k
      : S4x2048x4096.Idx) = ix3 bb ss k := fun k => funext fun a => by
    match a with
    | ⟨0, _⟩ => exact Fin.ext (by show (bb.val * 2048 + ss.val) / 2048 = bb.val; omega)
    | ⟨1, _⟩ => exact Fin.ext (by show (bb.val * 2048 + ss.val) % 2048 = ss.val; omega)
    | ⟨2, _⟩ => rfl
  have he : ∀ p : Fin 2048, (V m c main_v4 : S8192x2048.Idx → EReal) (ix2 (⟨bb.val * 2048 + ss.val, by omega⟩ : Fin 8192) p)
      = m ((c : Thread nD τ).loc main_arg0) (ix3 bb ss (⟨2 * p.val, by have := p.isLt; omega⟩ : Fin 4096)) := fun p =>
    (even_apply m c _ p).trans (congrArg (m ((c : Thread nD τ).loc main_arg0)) (hrow _))
  have ho : ∀ p : Fin 2048, (V m c main_v7 : S8192x2048.Idx → EReal) (ix2 (⟨bb.val * 2048 + ss.val, by omega⟩ : Fin 8192) p)
      = m ((c : Thread nD τ).loc main_arg0) (ix3 bb ss (⟨2 * p.val + 1, by have := p.isLt; omega⟩ : Fin 4096)) := fun p =>
    (odd_apply m c _ p).trans (congrArg (m ((c : Thread nD τ).loc main_arg0)) (hrow _))
  show Hat (V m c main_v4) (V m c main_v7) (V m c main_arg1) (V m c main_v8) (V m c main_v9)
    (⟨bb.val * 2048 + ss.val, by omega⟩ : Fin 8192) o = _
  unfold Hat
  rw [V_main_arg1]
  simp only [he, ho, scale_apply m c, bias_apply m c]

/-- What the lines after the region leave in the result buffer: the output array, viewed as 4 × 2048 × 11008. -/
theorem tail_term (c : Dev nD) :
    Pipeline.afterTail₀ cfgs (dats m) 0 (V0 m) [hostOps1] c main_v11
      = (shapeCast S4x2048x11008 ((dats m 0 c).arrAt 5 cfg0.N) shapeCasts_S8192x11008_S4x2048x11008 : FVec Ideal S4x2048x11008 .f32) := by
  unfold Pipeline.afterTail₀
  show StableHlo.after hostOps1 _ (Proc.devRef .tc main_v11) = _
  after_results
  have hw : Pipeline.withArrays (cfgs 0).spec c (V0 m c) (fun w => (dats m 0 c).arrAt w (cfgs 0).N) (Proc.devRef .tc main_v10)
      = (dats m 0 c).arrAt 5 cfg0.N := Pipeline.withArrays_arr spec0 launch0.win.arr_inj c _ _ 5
  rw [hw]
  rfl

/-- The result buffer after the program is the layer's result of the arguments. -/
theorem result_eq (c : Dev nD) : Pipeline.afterTail₀ cfgs (dats m) 0 (V0 m) [hostOps1] c main_v11 = Gm m c := by
  rw [tail_term, final]
  funext j
  obtain ⟨bb, ss, o, rfl⟩ : ∃ (bb : Fin 4) (ss : Fin 2048) (o : Fin 11008), j = ix3 bb ss o := ⟨j 0, j 1, j 2, eq_ix3 j⟩
  have hb : bb.val < 4 := bb.isLt
  have hs : ss.val < 2048 := ss.isLt
  refine (shapeCast_apply (HV m c) shapeCasts_S8192x11008_S4x2048x11008 (ix3 bb ss o)
    (ix2 (⟨bb.val * 2048 + ss.val, by omega⟩ : Fin 8192) o) (by
      rw [Shape.rowMajor_val_two, Shape.rowMajor_val_three]
      show (bb.val * 2048 + ss.val) * 11008 + o.val = (bb.val * 2048 + ss.val) * 11008 + o.val
      rfl)).trans ?_
  exact H_row m c bb ss o

/-- Every weakly fair execution of the kernel program terminates with the result buffer at the layer's result of the
    arguments, and the arguments unchanged. -/
theorem run : θ_run defs (onTc (τ := τ) (main (F := Ideal))) ⟨m, fun _ => 0, ρ⟩ (fun r => ∀ c : Dev nD,
      r.2.mem ((c.tc : Thread nD τ).loc main_v11) = Gm m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v11 (Pipeline.mem_restRefs_of main_v11 (by decide) (by decide))).trans (result_eq m c),
      ((h c).2 main_arg0 (Pipeline.mem_restRefs_of main_arg0 (by decide) (by decide))).trans (W_main_arg0 m (dats m) c),
      ((h c).1 2).trans (((dats m 0 c).arrAt_in 2 rfl _).trans ((A_eq m c 2).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.ProgramValue

end
-- ==== Proof.RefIsG.lean ====
/-
  The reference's result is the layer's result `G`.

  The reference builds the integer weight matrix by stacking the low and the high nibbles of every word along a new last
  axis of length 2 and flattening it away: entry `(o, i)` of the flattened matrix is entry `(o, i / 2, i % 2)` of the
  stack, so even columns are low nibbles and odd columns are high nibbles. It then converts to reals, scales row `o` by
  `scale[o]`, contracts against `x` over the 4096 columns and adds `bias[o]`. Read one operation at a time, index by
  index, that is `G` verbatim.
-/
import proofs.«418256_j44092134261132_2_alg».proof.Proof.Gen.ReferenceIdeal.Read
import proofs.«418256_j44092134261132_2_alg».proof.Proof.Spec

noncomputable section

namespace Cert.ReferenceIdeal.RefValue

open Cert.ReferenceIdeal Cert.ReferenceIdeal.Gen Cert.ReferenceIdeal.Read Cert.NibbleLinear
open Idealize.ShloMosaic Idealize.ShloMosaic.TcCoe Idealize.ShloMosaic.ValueIdx

/-- The low-nibble stage at a word. -/
theorem low_stage (q : (⟨S11008x2048, .i32⟩ : BufTy).Contents (Elt Ideal)) (o : Fin 11008) (p : Fin 2048) :
    val_main_v3 (F := Ideal) q (ix2 o p) = lowNib (q (ix2 o p)) := by
  rw [val_main_v3_apply, val_main_v1_apply, val_main_v0_apply, val_main_c_apply, val_main_v2_apply, val_main_c_0_apply]
  rfl

/-- The high-nibble stage at a word. -/
theorem high_stage (q : (⟨S11008x2048, .i32⟩ : BufTy).Contents (Elt Ideal)) (o : Fin 11008) (p : Fin 2048) :
    val_main_v9 (F := Ideal) q (ix2 o p) = highNib (q (ix2 o p)) := by
  rw [val_main_v9_apply, val_main_v7_apply, val_main_v5_apply, val_main_v4_apply, val_main_c_1_apply, val_main_v6_apply,
    val_main_c_2_apply, val_main_v8_apply, val_main_c_3_apply]
  rfl

/-- The stack of nibbles at `(o, p, e)`: the low nibble of word `p` at `e = 0`, the high nibble at `e = 1`. -/
theorem stacked_apply (q : (⟨S11008x2048, .i32⟩ : BufTy).Contents (Elt Ideal)) (o : Fin 11008) (p : Fin 2048) (e : Fin 2) :
    val_main_v12 (F := Ideal) q (ix3 o p e) = if e.val = 0 then lowNib (q (ix2 o p)) else highNib (q (ix2 o p)) := by
  unfold val_main_v12
  by_cases he : e.val = 0
  · rw [if_pos he]
    rw [concatenate_pair_apply_left (2 : Fin 3) (val_main_v10 (F := Ideal) q) (val_main_v11 (F := Ideal) q)
      concatenates_S11008x2048x1_S11008x2048x1_S11008x2048x2_d2 (ix3 o p e) rfl (ix3 o p (0 : Fin 1))
      (fun b => by match b with | ⟨0, _⟩ => rfl | ⟨1, _⟩ => rfl | ⟨2, _⟩ => exact he.symm)]
    rw [val_main_v10_apply]
    have ei : idx_main_v10 (ix3 o p (0 : Fin 1)) = ix2 o p := funext fun a => by match a with | ⟨0, _⟩ => rfl | ⟨1, _⟩ => rfl
    rw [ei, low_stage]
  · rw [if_neg he]
    have he1 : e.val = 1 := by have := e.isLt; omega
    rw [concatenate_pair_apply_right (2 : Fin 3) (val_main_v10 (F := Ideal) q) (val_main_v11 (F := Ideal) q)
      concatenates_S11008x2048x1_S11008x2048x1_S11008x2048x2_d2 (ix3 o p e) rfl rfl (ix3 o p (0 : Fin 1))
      (fun b hb => by match b with | ⟨0, _⟩ => rfl | ⟨1, _⟩ => rfl | ⟨2, _⟩ => exact absurd rfl hb)
      (by show (0 : Nat) + 1 = e.val; omega)]
    rw [val_main_v11_apply]
    have ei : idx_main_v11 (ix3 o p (0 : Fin 1)) = ix2 o p := funext fun a => by match a with | ⟨0, _⟩ => rfl | ⟨1, _⟩ => rfl
    rw [ei, high_stage]

/-- The reference's dequantized weight stage at `(o, i)` is `W[o, i]`. -/
theorem weight_stage (q : (⟨S11008x2048, .i32⟩ : BufTy).Contents (Elt Ideal)) (s : (⟨S11008, .f32⟩ : BufTy).Contents (Elt Ideal))
    (o : Fin 11008) (i : Fin 4096) :
    val_main_v17 (F := Ideal) q s (ix2 o i) = weight q s o i := by
  rw [val_main_v17_apply, val_main_v14_apply, val_main_v13_apply, val_main_v16_apply, val_main_v15_apply]
  have e13 : idx_main_v13 (ix2 o i)
      = ix3 o (⟨i.val / 2, by have := i.isLt; omega⟩ : Fin 2048) (⟨i.val % 2, by omega⟩ : Fin 2) := funext fun a => Fin.ext (by
    have ho : o.val < 11008 := o.isLt
    have hi : i.val < 4096 := i.isLt
    match a with
    | ⟨0, _⟩ => show (o.val * 4096 + i.val) / 4096 = o.val; omega
    | ⟨1, _⟩ => show (o.val * 4096 + i.val) / 2 % 2048 = i.val / 2; omega
    | ⟨2, _⟩ => show (o.val * 4096 + i.val) % 2 = i.val % 2; omega)
  have e15 : idx_main_v15 (idx_main_v16 (ix2 o i)) = ix1 o := funext fun a => by match a with | ⟨0, _⟩ => rfl
  rw [e13, e15, stacked_apply]
  rfl

/-- The reference's result stage is `G` of the arguments. -/
theorem result_is_G (x : (⟨S4x2048x4096, .f32⟩ : BufTy).Contents (Elt Ideal)) (q : (⟨S11008x2048, .i32⟩ : BufTy).Contents (Elt Ideal))
    (s b : (⟨S11008, .f32⟩ : BufTy).Contents (Elt Ideal)) :
    val_main_v21 (F := Ideal) x q s b = G x q s b := by
  funext j
  obtain ⟨bb, ss, o, rfl⟩ : ∃ (bb : Fin 4) (ss : Fin 2048) (o : Fin 11008), j = ix3 bb ss o := ⟨j 0, j 1, j 2, eq_ix3 j⟩
  rw [G_ix3, val_main_v21_apply, val_main_v18_apply, val_main_v20_apply, val_main_v19_apply]
  unfold Gat
  have el : ∀ k : Fin 4096, lidx_main_v18 (ix3 bb ss o) k = ix3 bb ss k := fun k => funext fun a => by
    match a with | ⟨0, _⟩ => rfl | ⟨1, _⟩ => rfl | ⟨2, _⟩ => rfl
  have er : ∀ k : Fin 4096, ridx_main_v18 (ix3 bb ss o) k = ix2 o k := fun k => funext fun a => by
    match a with | ⟨0, _⟩ => rfl | ⟨1, _⟩ => rfl
  have eb : idx_main_v19 (idx_main_v20 (ix3 bb ss o)) = ix1 o := funext fun a => by match a with | ⟨0, _⟩ => rfl
  rw [eb]
  refine congrArg (· + b (ix1 o)) (Finset.sum_congr rfl fun k _ => ?_)
  rw [el, er, weight_stage]

end Cert.ReferenceIdeal.RefValue

end
-- ==== Proof.lean ====
/-
  A linear layer with 4-bit weights: `y[b, s, o] = (Σ_{i < 4096} x[b, s, i] · W[o, i]) + bias[o]`, where row `o` of `W`
  interleaves the signed low and high nibbles of 2048 packed words (column `2p` the low nibble of word `p`, column
  `2p + 1` its high nibble), each as a real times `scale[o]`.

  The reference builds `W` whole and contracts over all 4096 columns. The kernel never builds `W`: it splits `x` into its
  even and its odd columns, multiplies the even columns by the low nibbles and the odd columns by the high nibbles
  block by block, and adds the two products and the bias. On the extended reals both are the same sum, because a sum
  over 4096 columns is the sum over the even columns plus the sum over the odd columns — a regrouping that holds in
  every commutative additive monoid, so the inputs' finiteness is never used. A change of float format is the identity
  there, a block product into zeros is a plain sum, and a shift by 4 is the same function on the vector unit and on the
  host.

  The pieces: Proof/Spec.lean (the layer's result `G` and the regrouping), Proof/RefIsG.lean (the reference's result is
  `G`), Proof/PayloadAt.lean (an entry of the kernel's output block), Proof/EntryArrays.lean (the operand arrays the
  region finds, read at an index), Proof/RegionValue.lean (the output array after the region), Proof/ProgramValue.lean
  (the kernel program's result is `G`).
-/
import proofs.«418256_j44092134261132_2_alg».proof.Defs
import proofs.«418256_j44092134261132_2_alg».proof.Proof.Gen.Kernel
import proofs.«418256_j44092134261132_2_alg».proof.Proof.Gen.Kernel.Frame
import proofs.«418256_j44092134261132_2_alg».proof.Proof.Gen.KernelIdeal
import proofs.«418256_j44092134261132_2_alg».proof.Proof.Gen.KernelIdeal.Frame
import proofs.«418256_j44092134261132_2_alg».proof.Proof.Gen.ReferenceIdeal
import proofs.«418256_j44092134261132_2_alg».proof.Proof.Gen.ReferenceIdeal.Run
import proofs.«418256_j44092134261132_2_alg».proof.Proof.Gen.ReferenceIdeal.Read
import proofs.«418256_j44092134261132_2_alg».proof.Proof.Gen.Pre_finite_inputs
import proofs.«418256_j44092134261132_2_alg».proof.Proof.ProgramValue
import proofs.«418256_j44092134261132_2_alg».proof.Proof.RefIsG

noncomputable section

namespace Cert.Proof

open Idealize.ShloMosaic Idealize.SL.Sem

/-- The word-level kernel program runs and leaves its arguments as they were. -/
theorem frame_kernel : Cert.frame_Kernel := fun m ρ _ => Cert.Kernel.Gen.frame m ρ

/-- So does the kernel program read on the extended reals. -/
theorem frame_kernelIdeal : Cert.frame_KernelIdeal := fun m ρ _ => Cert.KernelIdeal.Gen.frame m ρ

/-- And the reference: its run, with the result's value dropped. -/
theorem frame_reference : Cert.frame_ReferenceIdeal := fun m ρ _ =>
  (θ_run Cert.ReferenceIdeal.defs _ _).mono (fun _ h c => (h c).2) (Cert.ReferenceIdeal.Value.run (F := Ideal) m ρ)

/-- From arguments that agree, both programs end with the layer's result `G` of the arguments in their result buffers. -/
theorem algebraic : Cert.algebraic_KernelIdeal_ReferenceIdeal := by
  intro m ρ m' ρ' _ hagree
  refine ⟨fun c => Cert.KernelIdeal.ProgramValue.Gm m c, Cert.KernelIdeal.ProgramValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2]
  exact (Cert.ReferenceIdeal.Read.val_main_v21_eq (F := Ideal) _ _ _ _).trans (Cert.ReferenceIdeal.RefValue.result_is_G _ _ _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
